-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x512 : Shape := ⟨3, ![2, 512, 512]⟩
abbrev S128x512 : Shape := ⟨2, ![128, 512]⟩
abbrev S128 : Shape := ⟨1, ![128]⟩
abbrev S512x128 : Shape := ⟨2, ![512, 128]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S512x128 : S_.BroadcastsInDim S512x128 (![] : Fin 0 → Fin S512x128.rank)
  reducesTo_S512x128_S_d0_1 : S512x128.ReducesTo [0, 1] S_

variable [Facts]

def fn_part2 {F : FTy → Type} [FloatOps F] (main_arg7 : FVec F S128 .f32) (main_arg8 : FVec F S512x128 .f32) (main_arg9 : FVec F S128x512 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S512x128 .f32 := Host.absf main_arg8
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S128x512 .f32 := Host.absf main_arg9
  let main_cst_16 : FVec F S_ .f32 := constant S_ .f32 0x7F800000#32
  let main_v45 : FVec F S128x512 .f32 := broadcastInDim S128x512 ![] bcast_S_S128x512 main_cst_16
  let main_v46 : IVec S128x512 1 := cmpf .olt main_v44 main_v45
  let main_c_17 : IVec S_ 1 := constantI S_ 1 1#1
  let main_v47 : IVec S_ 1 := (fun x v => Host.reduce IntOp.andi x v reducesTo_S128x512_S_d0_1 h_S_) main_v46 main_c_17
  let main_v48 : IVec S_ 1 := andi main_v43 main_v47
  main_v48

def fn_part1 {F : FTy → Type} [FloatOps F] (main_arg4 : FVec F S128x512 .f32) (main_arg5 : FVec F S128 .f32) (main_arg6 : FVec F S128x512 .f32) (main_arg7 : FVec F S128 .f32) (main_arg8 : FVec F S512x128 .f32) (main_arg9 : FVec F S128x512 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x512 .f32 := Host.absf main_arg4
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x512 .f32 := Host.absf main_arg6
  let main_cst_10 : FVec F S_ .f32 := constant S_ .f32 0x7F800000#32
  let main_v30 : FVec F S128x512 .f32 := broadcastInDim S128x512 ![] bcast_S_S128x512 main_cst_10
  let main_v31 : IVec S128x512 1 := cmpf .olt main_v29 main_v30
  let main_c_11 : IVec S_ 1 := constantI S_ 1 1#1
  let main_v32 : IVec S_ 1 := (fun x v => Host.reduce IntOp.andi x v reducesTo_S128x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S2x512x512 .f32) (main_arg1 : FVec F S2x512x512 .f32) (main_arg2 : FVec F S128x512 .f32) (main_arg3 : FVec F S128 .f32) (main_arg4 : FVec F S128x512 .f32) (main_arg5 : FVec F S128 .f32) (main_arg6 : FVec F S128x512 .f32) (main_arg7 : FVec F S128 .f32) (main_arg8 : FVec F S512x128 .f32) (main_arg9 : FVec F S128x512 .f32) : IVec S_ 1 :=
  let main_v0 : FVec F S2x512x512 .f32 := Host.absf main_arg0
  let main_cst : FVec F S_ .f32 := constant S_ .f32 0x7F800000#32
  let main_v1 : FVec F S2x512x512 .f32 := broadcastInDim S2x512x512 ![] bcast_S_S2x512x512 main_cst
  let main_v2 : IVec S2x512x512 1 := cmpf .olt main_v0 main_v1
  let main_c : IVec S_ 1 := constantI S_ 1 1#1
  let main_v3 : IVec S_ 1 := (fun x v => Host.reduce IntOp.andi x v reducesTo_S2x512x512_S_d0_1_2 h_S_) main_v2 main_c
  let main_v4 : FVec F S2x512x512 .f32 := Host.absf main_arg1
  let main_cst_0 : FVec F S_ .f32 := constant S_ .f32 0x7F800000#32
  let main_v5 : FVec F S2x512x512 .f32 := broadcastInDim S2x512x512 ![] bcast_S_S2x512x512 main_cst_0
  let main_v6 : IVec S2x512x512 1 := cmpf .olt main_v4 main_v5
  let main_c_1 : IVec S_ 1 := constantI S_ 1 1#1
  let main_v7 : IVec S_ 1 := (fun x v => Host.reduce IntOp.andi x v reducesTo_S2x512x512_S_d0_1_2 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S2x512x512 : Shape := ⟨3, ![2, 512, 512]⟩
abbrev S128x512 : Shape := ⟨2, ![128, 512]⟩
abbrev S128 : Shape := ⟨1, ![128]⟩
abbrev S512x128 : Shape := ⟨2, ![512, 128]⟩
abbrev S1x128 : Shape := ⟨2, ![1, 128]⟩
abbrev S2x512x128 : Shape := ⟨3, ![2, 512, 128]⟩
abbrev S1x512x512 : Shape := ⟨3, ![1, 512, 512]⟩
abbrev S1x512x128 : Shape := ⟨3, ![1, 512, 128]⟩
abbrev S512x512 : Shape := ⟨2, ![512, 512]⟩

abbrev nBuf : Space → Nat
  | .hbm => 14
  | .vmem => 14
  | .smem => 0
  | _ => 0

abbrev bufTy : (tb : Table) → Fin (tcTables nBuf tb) → BufTy
  | .hbm, ⟨0, _⟩ => ⟨S2x512x512, .f32⟩
  | .hbm, ⟨1, _⟩ => ⟨S2x512x512, .f32⟩
  | .hbm, ⟨2, _⟩ => ⟨S128x512, .f32⟩
  | .hbm, ⟨3, _⟩ => ⟨S128, .f32⟩
  | .hbm, ⟨4, _⟩ => ⟨S128x512, .f32⟩
  | .hbm, ⟨5, _⟩ => ⟨S128, .f32⟩
  | .hbm, ⟨6, _⟩ => ⟨S128x512, .f32⟩
  | .hbm, ⟨7, _⟩ => ⟨S128, .f32⟩
  | .hbm, ⟨8, _⟩ => ⟨S512x128, .f32⟩
  | .hbm, ⟨9, _⟩ => ⟨S128x512, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S2x512x128, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S128x512, .f32⟩
  | .local _ .vmem, ⟨5, _⟩ => ⟨S1x128, .f32⟩
  | .local _ .vmem, ⟨6, _⟩ => ⟨S128x512, .f32⟩
  | .local _ .vmem, ⟨7, _⟩ => ⟨S1x128, .f32⟩
  | .local _ .vmem, ⟨8, _⟩ => ⟨S128x512, .f32⟩
  | .local _ .vmem, ⟨9, _⟩ => ⟨S1x128, .f32⟩
  | .local _ .vmem, ⟨10, _⟩ => ⟨S512x128, .f32⟩
  | .local _ .vmem, ⟨11, _⟩ => ⟨S128x512, .f32⟩
  | .local _ .vmem, ⟨12, _⟩ => ⟨S1x512x128, .f32⟩
  | .local _ .vmem, ⟨13, _⟩ => ⟨S1x512x128, .f32⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S128_S1x128 : S128.ShapeCasts S1x128
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S128x512_S128x512_0_0 : ∀ a, (![0, 0] : Fin 2 → Nat) a + S128x512.size a ≤ S128x512.size a
  h_S128x512 : 0 < S128x512.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S512x128_S512x128_0_0 : ∀ a, (![0, 0] : Fin 2 → Nat) a + S512x128.size a ≤ S512x128.size a
  h_S512x128 : 0 < S512x128.numel
  broadcasts_S1x128_S512x128 : S1x128.Broadcasts S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  dot_S512x512_S128x512_S512x128_1_1_0_0_n_n_wf : DotDims.WF S512x512 S128x512 S512x128 [1] [1] [0] [0] [] []
  dot_S512x128_S128x512_S512x512_1_0_0_1_n_n_wf : DotDims.WF S512x128 S128x512 S512x512 [1] [0] [0] [1] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S2x512x512.size a
  hwx0_0 : ∀ i : grid0.Coords, EltTy.bits .f32 = 32 ∨ (Rect.block (s := S2x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S2x512x512.size a
  hwx0_1 : ∀ i : grid0.Coords, EltTy.bits .f32 = 32 ∨ (Rect.block (s := S2x512x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x512.size a ≤ S128x512.size a
  hwx0_6 : ∀ i : grid0.Coords, EltTy.bits .f32 = 32 ∨ (Rect.block (s := S128x512) S128x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x128.size a ≤ S512x128.size a
  hwx0_8 : ∀ i : grid0.Coords, EltTy.bits .f32 = 32 ∨ (Rect.block (s := S512x128) S512x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x512.size a ≤ S128x512.size a
  hwx0_9 : ∀ i : grid0.Coords, EltTy.bits .f32 = 32 ∨ (Rect.block (s := S128x512) S128x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x128.size a ≤ S2x512x128.size a
  hwx0_10 : ∀ i : grid0.Coords, EltTy.bits .f32 = 32 ∨ (Rect.block (s := S2x512x128) S1x512x128.size (cc0_transform_10 i) (hinb0_10 i)).WholeWords (EltTy.packing .f32)

variable [Facts₀]

def dot_S512x512_S128x512_S512x128_1_1_0_0_n_n : DotDims S512x512 S128x512 S512x128 where
  lhsContracting := [1]
  rhsContracting := [1]
  lhsNonContracting := [0]
  rhsNonContracting := [0]
  lhsBatch := []
  rhsBatch := []
  wf := dot_S512x512_S128x512_S512x128_1_1_0_0_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x512x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S2x512x512 : Shape := ⟨3, ![2, 512, 512]⟩
abbrev S128x512 : Shape := ⟨2, ![128, 512]⟩
abbrev S128 : Shape := ⟨1, ![128]⟩
abbrev S512x128 : Shape := ⟨2, ![512, 128]⟩
abbrev S2x512x128 : Shape := ⟨3, ![2, 512, 128]⟩
abbrev S1x1x128 : Shape := ⟨3, ![1, 1, 128]⟩
abbrev S512x512 : Shape := ⟨2, ![512, 512]⟩
abbrev S2x1x512x128 : Shape := ⟨4, ![2, 1, 512, 128]⟩
abbrev S1x512x512x1 : Shape := ⟨4, ![1, 512, 512, 1]⟩
abbrev S2x512x512x128 : Shape := ⟨4, ![2, 512, 512, 128]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S2x512x512, .f32⟩
  | .hbm, ⟨2, _⟩ => ⟨S128x512, .f32⟩
  | .hbm, ⟨3, _⟩ => ⟨S128, .f32⟩
  | .hbm, ⟨4, _⟩ => ⟨S128x512, .f32⟩
  | .hbm, ⟨5, _⟩ => ⟨S128, .f32⟩
  | .hbm, ⟨6, _⟩ => ⟨S128x512, .f32⟩
  | .hbm, ⟨7, _⟩ => ⟨S128, .f32⟩
  | .hbm, ⟨8, _⟩ => ⟨S512x128, .f32⟩
  | .hbm, ⟨9, _⟩ => ⟨S128x512, .f32⟩
  | .hbm, ⟨10, _⟩ => ⟨S2x512x128, .f32⟩
  | .hbm, ⟨11, _⟩ => ⟨S1x1x128, .f32⟩
  | .hbm, ⟨12, _⟩ => ⟨S2x512x128, .f32⟩
  | .hbm, ⟨13, _⟩ => ⟨S2x512x128, .f32⟩
  | .hbm, ⟨14, _⟩ => ⟨S2x512x128, .f32⟩
  | .hbm, ⟨15, _⟩ => ⟨S1x1x128, .f32⟩
  | .hbm, ⟨16, _⟩ => ⟨S2x512x128, .f32⟩
  | .hbm, ⟨17, _⟩ => ⟨S2x512x128, .f32⟩
  | .hbm, ⟨18, _⟩ => ⟨S2x512x128, .f32⟩
  | .hbm, ⟨19, _⟩ => ⟨S1x1x128, .f32⟩
  | .hbm, ⟨20, _⟩ => ⟨S2x512x128, .f32⟩
  | .hbm, ⟨21, _⟩ => ⟨S2x512x128, .f32⟩
  | .hbm, ⟨22, _⟩ => ⟨S512x512, .f32⟩
  | .hbm, ⟨23, _⟩ => ⟨S2x1x512x128, .f32⟩
  | .hbm, ⟨24, _⟩ => ⟨S1x512x512x1, .f32⟩
  | .hbm, ⟨25, _⟩ => ⟨S2x512x512x128, .f32⟩
  | .hbm, ⟨26, _⟩ => ⟨S2x512x512x128, .f32⟩
  | .hbm, ⟨27, _⟩ => ⟨S2x512x512x128, .f32⟩
  | .hbm, ⟨28, _⟩ => ⟨S2x512x512x128, .f32⟩
  | .hbm, ⟨29, _⟩ => ⟨S2x1x512x128, .f32⟩
  | .hbm, ⟨30, _⟩ => ⟨S2x512x512x128, .f32⟩
  | .hbm, ⟨31, _⟩ => ⟨S2x512x512x128, .f32⟩
  | .hbm, ⟨32, _⟩ => ⟨S_, .f32⟩
  | .hbm, ⟨33, _⟩ => ⟨S2x512x128, .f32⟩
  | .hbm, ⟨34, _⟩ => ⟨S_, .f32⟩
  | .hbm, ⟨35, _⟩ => ⟨S2x512x128, .f32⟩
  | .hbm, ⟨36, _⟩ => ⟨S2x512x128, .f32⟩
  | .hbm, ⟨37, _⟩ => ⟨S2x512x128, .f32⟩
  | .hbm, ⟨38, _⟩ => ⟨S_, .f32⟩
  | .hbm, ⟨39, _⟩ => ⟨S2x512x128, .f32⟩
  | .hbm, ⟨40, _⟩ => ⟨S2x512x128, .f32⟩
  | .hbm, ⟨41, _⟩ => ⟨S_, .f32⟩
  | .hbm, ⟨42, _⟩ => ⟨S2x512x128, .f32⟩
  | .hbm, ⟨43, _⟩ => ⟨S2x512x128, .f32⟩
  | .hbm, ⟨44, _⟩ => ⟨S2x512x128, .f32⟩
  | .hbm, ⟨45, _⟩ => ⟨S2x512x128, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S2x512x128_0_1_2 : S1x1x128.BroadcastsInDim S2x512x128 (![0, 1, 2] : Fin 3 → Fin S2x512x128.rank)
  bcast_S2x512x128_S2x1x512x128_0_2_3 : S2x512x128.BroadcastsInDim S2x1x512x128 (![0, 2, 3] : Fin 3 → Fin S2x1x512x128.rank)
  bcast_S512x512_S1x512x512x1_1_2 : S512x512.BroadcastsInDim S1x512x512x1 (![1, 2] : Fin 2 → Fin S1x512x512x1.rank)
  bcast_S2x1x512x128_S2x512x512x128_0_1_2_3 : S2x1x512x128.BroadcastsInDim S2x512x512x128 (![0, 1, 2, 3] : Fin 4 → Fin S2x512x512x128.rank)
  bcast_S1x512x512x1_S2x512x512x128_0_1_2_3 : S1x512x512x1.BroadcastsInDim S2x512x512x128 (![0, 1, 2, 3] : Fin 4 → Fin S2x512x512x128.rank)
  reducesTo_S2x512x512x128_S2x512x128_d2 : S2x512x512x128.ReducesTo [2] S2x512x128
  h_S_ : 0 < S_.numel
  bcast_S_S2x512x128 : S_.BroadcastsInDim S2x512x128 (![] : Fin 0 → Fin S2x512x128.rank)
  dot_S2x512x512_S128x512_S2x512x128_2_1_01_0_n_n_wf : DotDims.WF S2x512x512 S128x512 S2x512x128 [2] [1] [0, 1] [0] [] []
  dot_S512x128_S128x512_S512x512_1_0_0_1_n_n_wf : DotDims.WF S512x128 S128x512 S512x512 [1] [0] [0] [1] [] []

variable [Facts₀]

def dot_S2x512x512_S128x512_S2x512x128_2_1_01_0_n_n : DotDims S2x512x512 S128x512 S2x512x128 where
  lhsContracting := [2]
  rhsContracting := [1]
  lhsNonContracting := [0, 1]
  rhsNonContracting := [0]
  lhsBatch := []
  rhsBatch := []
  wf := dot_S2x512x512_S128x512_S2x512x128_2_1_01_0_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

class Facts : Prop extends Facts₀ where

variable [Facts]
-- ==== Proof.AftSpec.lean ====
/-
  The attention-free transformer layer with a low-rank positional bias, as one function of its ten argument arrays.

  With k = kv·kWᵀ + kb, v = kv·vWᵀ + vb, qh = q·qWᵀ + qb (three projections of rows of length 512 onto 128 features)
  and the positional bias p = u·w (a 512 × 512 product through an inner dimension of 128), the result at batch b,
  query position t and feature h is

      σ(qh[b,t,h]) · ( Σ_s e^{p[t,s]} · (e^{k[b,s,h]} · v[b,s,h]) ) / ( Σ_s e^{p[t,s]} · e^{k[b,s,h]} ),

  the sums over the 512 key positions s, σ the logistic function. This is the factored form: the exponential of
  the sum k[b,s,h] + p[t,s] has been split into a product, so that both sums over s are matrix products. The
  unfactored form takes e^{k[b,s,h] + p[t,s]} elementwise over a four-axis array and sums it over s. On the extended
  reals the exponential (0 at -∞, +∞ at +∞) turns EVERY sum into the product, infinite arguments included, so the
  two forms agree with no finiteness assumption; the rest is commutativity and associativity of the product.
-/
import Idealize.ShloMosaic.PureOps.Ideal
import Idealize.ShloMosaic.PureOps.Ideal.Laws
import Idealize.ShloMosaic.Lib.ValueIdx
import Idealize.ShloMosaic.Lib.IdealHost

noncomputable section

namespace Cert.Aft

open Idealize.ShloMosaic Idealize.ShloMosaic.ValueIdx

/-- The two sequence arrays, [2, 512, 512]: batch, position, model dimension. -/
abbrev SSeq : Shape := ⟨3, ![2, 512, 512]⟩
/-- A projection's weights, [128, 512] (feature, model dimension); also the second factor of the positional bias
    (inner dimension, key position). -/
abbrev SWt : Shape := ⟨2, ![128, 512]⟩
/-- A projection's bias, [128]. -/
abbrev SBias : Shape := ⟨1, ![128]⟩
/-- The first factor of the positional bias, [512, 128] (query position, inner dimension). -/
abbrev SPosL : Shape := ⟨2, ![512, 128]⟩
/-- The result, [2, 512, 128]: batch, query position, feature. -/
abbrev SRes : Shape := ⟨3, ![2, 512, 128]⟩

/-! ## The exponential of a sum -/

/-- On the extended reals the exponential of a sum is the product of the exponentials, at every pair of arguments:
    -∞ + y = -∞ goes to 0 = 0 · e^y; x + ∞ = ∞ for x ≠ -∞ goes to ∞ = e^x · ∞ since e^x > 0. -/
theorem exp_add (a b : EReal) : Ideal.exp (a + b) = Ideal.exp a * Ideal.exp b := by
  induction a using EReal.rec with
  | bot => rw [EReal.bot_add, Ideal.exp_bot, zero_mul]
  | top =>
    induction b using EReal.rec with
    | bot => rw [EReal.add_bot, Ideal.exp_bot, mul_zero]
    | top => rw [EReal.top_add_top, Ideal.exp_top, EReal.top_mul_top]
    | coe y => rw [EReal.top_add_coe, Ideal.exp_top, Ideal.exp_coe, EReal.top_mul_coe_of_pos (Real.exp_pos y)]
  | coe x =>
    induction b using EReal.rec with
    | bot => rw [EReal.add_bot, Ideal.exp_bot, mul_zero]
    | top => rw [EReal.coe_add_top, Ideal.exp_top, Ideal.exp_coe, EReal.coe_mul_top_of_pos (Real.exp_pos x)]
    | coe y => rw [← EReal.coe_add, Ideal.exp_coe, Ideal.exp_coe, Ideal.exp_coe, Real.exp_add, EReal.coe_mul]

/-! ## The layer -/

/-- A projection at (b, t, h): the row t of batch b against the weight row h, plus the bias at h. -/
def proj (x : SSeq.Idx → EReal) (W : SWt.Idx → EReal) (β : SBias.Idx → EReal) (b : Fin 2) (t : Fin 512) (h : Fin 128) : EReal :=
  (∑ d : Fin 512, x (ix3 b t d) * W (ix2 h d)) + β (ix1 h)

/-- The positional bias at (query position t, key position s). -/
def posBias (u : SPosL.Idx → EReal) (w : SWt.Idx → EReal) (t s : Fin 512) : EReal :=
  ∑ r : Fin 128, u (ix2 t r) * w (ix2 r s)

/-- The result at (b, t, h), in the factored form. -/
def outAt (q kv : SSeq.Idx → EReal) (qW : SWt.Idx → EReal) (qb : SBias.Idx → EReal) (kW : SWt.Idx → EReal) (kb : SBias.Idx → EReal)
    (vW : SWt.Idx → EReal) (vb : SBias.Idx → EReal) (u : SPosL.Idx → EReal) (w : SWt.Idx → EReal)
    (b : Fin 2) (t : Fin 512) (h : Fin 128) : EReal :=
  Ideal.logistic (proj q qW qb b t h) *
    Ideal.div (∑ s : Fin 512, Ideal.exp (posBias u w t s) * (Ideal.exp (proj kv kW kb b s h) * proj kv vW vb b s h))
      (∑ s : Fin 512, Ideal.exp (posBias u w t s) * Ideal.exp (proj kv kW kb b s h))

/-- The whole result array. -/
def out (q kv : SSeq.Idx → EReal) (qW : SWt.Idx → EReal) (qb : SBias.Idx → EReal) (kW : SWt.Idx → EReal) (kb : SBias.Idx → EReal)
    (vW : SWt.Idx → EReal) (vb : SBias.Idx → EReal) (u : SPosL.Idx → EReal) (w : SWt.Idx → EReal) : SRes.Idx → EReal :=
  fun i => outAt q kv qW qb kW kb vW vb u w (i 0) (i 1) (i 2)

/-! ## The unfactored form is the factored one -/

/-- At one result entry: the logistic function spelt as 1 / (1 + e^{-x}), and the two sums over the key positions
    taken of e^{k + p} · v and of e^{k + p} from a zero initial value, are the factored form. -/
theorem unfactored_eq {ι : Type} [Fintype ι] (x : EReal) (k p v : ι → EReal) :
    Ideal.div 1 (1 + Ideal.exp (-x)) * Ideal.div (0 + ∑ s, Ideal.exp (k s + p s) * v s) (0 + ∑ s, Ideal.exp (k s + p s))
      = Ideal.logistic x * Ideal.div (∑ s, Ideal.exp (p s) * (Ideal.exp (k s) * v s)) (∑ s, Ideal.exp (p s) * Ideal.exp (k s)) := by
  have h1 : ∀ s, Ideal.exp (k s + p s) * v s = Ideal.exp (p s) * (Ideal.exp (k s) * v s) := fun s => by
    rw [exp_add, mul_comm (Ideal.exp (k s)), mul_assoc]
  have h2 : ∀ s, Ideal.exp (k s + p s) = Ideal.exp (p s) * Ideal.exp (k s) := fun s => by rw [exp_add, mul_comm]
  simp only [h1, zero_add]
  simp only [h2]
  rfl

end Cert.Aft

end
-- ==== Proof.KernelBody.lean ====
/-
  The kernel's body at one grid point: what it leaves in the output block, entry by entry.

  At grid point b the body holds the b-th [512, 512] slabs of q and kv (as [1, 512, 512] blocks), the three weight
  matrices, the three biases as [1, 128] rows, and the two factors of the positional bias. It forms
    qh = q·qWᵀ + qb,  k = kv·kWᵀ + kb,  v = kv·vWᵀ + vb       (rows against weight rows, bias row broadcast down),
    E = exp(u·w)  [512, 512],   K = exp(k)  [512, 128],
    num = E·(K ∘ v),  den = E·K                                  (two [512,512]·[512,128] products),
  and stores σ(qh) ∘ (num / den). Each matrix product into a zero accumulator is, at an entry, the plain sum over
  its one contracted axis; so entry (t, h) of the block is the factored form of the layer at (b, t, h), once each
  block entry is read as the array entry it was fetched from.
-/
import proofs.«121404_j214748365538_1_alg».proof.Proof.Gen.KernelIdeal.Value
import proofs.«121404_j214748365538_1_alg».proof.Proof.AftSpec
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Cert.KernelIdeal.Value Idealize.ShloMosaic Idealize.ShloMosaic.ValueIdx Cert.Aft

/-! ## The three matrix products at an entry

Rows against rows ([512,512] with [128,512], contracting the second axis of both), and two plain products
([512,128]·[128,512] and [512,512]·[512,128]). For each: where the operand indices sit, axis by axis, and then the
product into the zero accumulator as a sum over the contracted coordinate. -/

theorem rowsRows_lhs_0 (i : S512x128.Idx) (q : dot_S512x512_S128x512_S512x128_1_1_0_0_n_n.contr.Idx) :
    (dot_S512x512_S128x512_S512x128_1_1_0_0_n_n.lhsIdx i q 0).val = (i 0).val := by
  unfold DotDims.lhsIdx
  rw [dif_neg (show ¬(0 : Fin S512x512.rank) ∈ dot_S512x512_S128x512_S512x128_1_1_0_0_n_n.lhsBatch by decide), dif_pos (show (0 : Fin S512x512.rank) ∈ dot_S512x512_S128x512_S512x128_1_1_0_0_n_n.lhsNonContracting by decide)]
  rfl
theorem rowsRows_lhs_1 (i : S512x128.Idx) (q : dot_S512x512_S128x512_S512x128_1_1_0_0_n_n.contr.Idx) :
    (dot_S512x512_S128x512_S512x128_1_1_0_0_n_n.lhsIdx i q 1).val = (q ⟨0, by decide⟩).val :=
  dot_S512x512_S128x512_S512x128_1_1_0_0_n_n.lhsIdx_val_of_single rfl i q
theorem rowsRows_rhs_0 (i : S512x128.Idx) (q : dot_S512x512_S128x512_S512x128_1_1_0_0_n_n.contr.Idx) :
    (dot_S512x512_S128x512_S512x128_1_1_0_0_n_n.rhsIdx i q 0).val = (i 1).val := by
  unfold DotDims.rhsIdx
  rw [dif_neg (show ¬(0 : Fin S128x512.rank) ∈ dot_S512x512_S128x512_S512x128_1_1_0_0_n_n.rhsBatch by decide), dif_pos (show (0 : Fin S128x512.rank) ∈ dot_S512x512_S128x512_S512x128_1_1_0_0_n_n.rhsNonContracting by decide)]
  rfl
theorem rowsRows_rhs_1 (i : S512x128.Idx) (q : dot_S512x512_S128x512_S512x128_1_1_0_0_n_n.contr.Idx) :
    (dot_S512x512_S128x512_S512x128_1_1_0_0_n_n.rhsIdx i q 1).val = (q ⟨0, by decide⟩).val :=
  dot_S512x512_S128x512_S512x128_1_1_0_0_n_n.rhsIdx_val_of_single rfl i q

/-- A [512,512] matrix against the ROWS of a [128,512] one: entry (t, h) is the sum over d of l[t,d]·r[h,d]. -/
theorem rowsRows_apply (l : FVec Ideal S512x512 .f32) (r : FVec Ideal S128x512 .f32) (t : Fin 512) (h : Fin 128) :
    matmul (F := Ideal) dot_S512x512_S128x512_S512x128_1_1_0_0_n_n none l r (constant (F := Ideal) S512x128 .f32 0x00000000#32) (ix2 t h) = ∑ k : Fin 512, l (ix2 t k) * r (ix2 h k) := by
  simp only [matmul]
  rw [Ideal.matmul_constant_zero_apply, ← Equiv.sum_comp (contrEquiv1 dot_S512x512_S128x512_S512x128_1_1_0_0_n_n 512 rfl rfl).symm]
  refine Finset.sum_congr rfl fun k _ => ?_
  have hk := contrEquiv1_symm_val dot_S512x512_S128x512_S512x128_1_1_0_0_n_n 512 rfl rfl k
  have el : dot_S512x512_S128x512_S512x128_1_1_0_0_n_n.lhsIdx (ix2 t h) ((contrEquiv1 dot_S512x512_S128x512_S512x128_1_1_0_0_n_n 512 rfl rfl).symm k) = ix2 t k := funext fun a => Fin.ext (by
    match a with
    | ⟨0, _⟩ => exact rowsRows_lhs_0 _ _
    | ⟨1, _⟩ => exact (rowsRows_lhs_1 _ _).trans hk)
  have er : dot_S512x512_S128x512_S512x128_1_1_0_0_n_n.rhsIdx (ix2 t h) ((contrEquiv1 dot_S512x512_S128x512_S512x128_1_1_0_0_n_n 512 rfl rfl).symm k) = ix2 h k := funext fun a => Fin.ext (by
    match a with
    | ⟨0, _⟩ => exact rowsRows_rhs_0 _ _
    | ⟨1, _⟩ => exact (rowsRows_rhs_1 _ _).trans hk)
  rw [el, er]

theorem pos_lhs_0 (i : S512x512.Idx) (q : dot_S512x128_S128x512_S512x512_1_0_0_1_n_n.contr.Idx) :
    (dot_S512x128_S128x512_S512x512_1_0_0_1_n_n.lhsIdx i q 0).val = (i 0).val := by
  unfold DotDims.lhsIdx
  rw [dif_neg (show ¬(0 : Fin S512x128.rank) ∈ dot_S512x128_S128x512_S512x512_1_0_0_1_n_n.lhsBatch by decide), dif_pos (show (0 : Fin S512x128.rank) ∈ dot_S512x128_S128x512_S512x512_1_0_0_1_n_n.lhsNonContracting by decide)]
  rfl
theorem pos_lhs_1 (i : S512x512.Idx) (q : dot_S512x128_S128x512_S512x512_1_0_0_1_n_n.contr.Idx) :
    (dot_S512x128_S128x512_S512x512_1_0_0_1_n_n.lhsIdx i q 1).val = (q ⟨0, by decide⟩).val :=
  dot_S512x128_S128x512_S512x512_1_0_0_1_n_n.lhsIdx_val_of_single rfl i q
theorem pos_rhs_0 (i : S512x512.Idx) (q : dot_S512x128_S128x512_S512x512_1_0_0_1_n_n.contr.Idx) :
    (dot_S512x128_S128x512_S512x512_1_0_0_1_n_n.rhsIdx i q 0).val = (q ⟨0, by decide⟩).val :=
  dot_S512x128_S128x512_S512x512_1_0_0_1_n_n.rhsIdx_val_of_single rfl i q
theorem pos_rhs_1 (i : S512x512.Idx) (q : dot_S512x128_S128x512_S512x512_1_0_0_1_n_n.contr.Idx) :
    (dot_S512x128_S128x512_S512x512_1_0_0_1_n_n.rhsIdx i q 1).val = (i 1).val := by
  unfold DotDims.rhsIdx
  rw [dif_neg (show ¬(1 : Fin S128x512.rank) ∈ dot_S512x128_S128x512_S512x512_1_0_0_1_n_n.rhsBatch by decide), dif_pos (show (1 : Fin S128x512.rank) ∈ dot_S512x128_S128x512_S512x512_1_0_0_1_n_n.rhsNonContracting by decide)]
  rfl

/-- The [512,128]·[128,512] product: entry (t, s) is the sum over the inner coordinate. -/
theorem pos_apply (l : FVec Ideal S512x128 .f32) (r : FVec Ideal S128x512 .f32) (t : Fin 512) (s : Fin 512) :
    matmul (F := Ideal) dot_S512x128_S128x512_S512x512_1_0_0_1_n_n none l r (constant (F := Ideal) S512x512 .f32 0x00000000#32) (ix2 t s) = ∑ k : Fin 128, l (ix2 t k) * r (ix2 k s) := by
  simp only [matmul]
  rw [Ideal.matmul_constant_zero_apply, ← Equiv.sum_comp (contrEquiv1 dot_S512x128_S128x512_S512x512_1_0_0_1_n_n 128 rfl rfl).symm]
  refine Finset.sum_congr rfl fun k _ => ?_
  have hk := contrEquiv1_symm_val dot_S512x128_S128x512_S512x512_1_0_0_1_n_n 128 rfl rfl k
  have el : dot_S512x128_S128x512_S512x512_1_0_0_1_n_n.lhsIdx (ix2 t s) ((contrEquiv1 dot_S512x128_S128x512_S512x512_1_0_0_1_n_n 128 rfl rfl).symm k) = ix2 t k := funext fun a => Fin.ext (by
    match a with
    | ⟨0, _⟩ => exact pos_lhs_0 _ _
    | ⟨1, _⟩ => exact (pos_lhs_1 _ _).trans hk)
  have er : dot_S512x128_S128x512_S512x512_1_0_0_1_n_n.rhsIdx (ix2 t s) ((contrEquiv1 dot_S512x128_S128x512_S512x512_1_0_0_1_n_n 128 rfl rfl).symm k) = ix2 k s := funext fun a => Fin.ext (by
    match a with
    | ⟨0, _⟩ => exact (pos_rhs_0 _ _).trans hk
    | ⟨1, _⟩ => exact pos_rhs_1 _ _)
  rw [el, er]

theorem mix_lhs_0 (i : S512x128.Idx) (q : dot_S512x512_S512x128_S512x128_1_0_0_1_n_n.contr.Idx) :
    (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
theorem mix_lhs_1 (i : S512x128.Idx) (q : dot_S512x512_S512x128_S512x128_1_0_0_1_n_n.contr.Idx) :
    (dot_S512x512_S512x128_S512x128_1_0_0_1_n_n.lhsIdx i q 1).val = (q ⟨0, by decide⟩).val :=
  dot_S512x512_S512x128_S512x128_1_0_0_1_n_n.lhsIdx_val_of_single rfl i q
theorem mix_rhs_0 (i : S512x128.Idx) (q : dot_S512x512_S512x128_S512x128_1_0_0_1_n_n.contr.Idx) :
    (dot_S512x512_S512x128_S512x128_1_0_0_1_n_n.rhsIdx i q 0).val = (q ⟨0, by decide⟩).val :=
  dot_S512x512_S512x128_S512x128_1_0_0_1_n_n.rhsIdx_val_of_single rfl i q
theorem mix_rhs_1 (i : S512x128.Idx) (q : dot_S512x512_S512x128_S512x128_1_0_0_1_n_n.contr.Idx) :
    (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

/-- The [512,512]·[512,128] product: entry (t, h) is the sum over the key position. -/
theorem mix_apply (l : FVec Ideal S512x512 .f32) (r : FVec Ideal S512x128 .f32) (t : Fin 512) (h : Fin 128) :
    matmul (F := Ideal) dot_S512x512_S512x128_S512x128_1_0_0_1_n_n none l r (constant (F := Ideal) S512x128 .f32 0x00000000#32) (ix2 t h) = ∑ k : Fin 512, l (ix2 t k) * r (ix2 k h) := by
  simp only [matmul]
  rw [Ideal.matmul_constant_zero_apply, ← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  have el : dot_S512x512_S512x128_S512x128_1_0_0_1_n_n.lhsIdx (ix2 t h) ((contrEquiv1 dot_S512x512_S512x128_S512x128_1_0_0_1_n_n 512 rfl rfl).symm k) = ix2 t k := funext fun a => Fin.ext (by
    match a with
    | ⟨0, _⟩ => exact mix_lhs_0 _ _
    | ⟨1, _⟩ => exact (mix_lhs_1 _ _).trans hk)
  have er : dot_S512x512_S512x128_S512x128_1_0_0_1_n_n.rhsIdx (ix2 t h) ((contrEquiv1 dot_S512x512_S512x128_S512x128_1_0_0_1_n_n 512 rfl rfl).symm k) = ix2 k h := funext fun a => Fin.ext (by
    match a with
    | ⟨0, _⟩ => exact (mix_rhs_0 _ _).trans hk
    | ⟨1, _⟩ => exact mix_rhs_1 _ _)
  rw [el, er]

/-! ## The layout operations at an entry -/

/-- A [1,512,512] block recast to [512,512]: entry (t, d) is the block's (0, t, d). -/
theorem slab_at (v : FVec Ideal S1x512x512 .f32) (t d : Fin 512) :
    shapeCast S512x512 v shapeCasts_S1x512x512_S512x512 (ix2 t d) = v (ix3 0 t d) :=
  shapeCast_apply v shapeCasts_S1x512x512_S512x512 (ix2 t d) (ix3 0 t d) (by
    rw [Shape.rowMajor_val_three, Shape.rowMajor_val_two]
    show (0 * 512 + t.val) * 512 + d.val = t.val * 512 + d.val
    omega)

/-- A [1,128] bias row broadcast down the 512 rows: entry (t, h) is the row's (0, h). -/
theorem biasRow_at (v : FVec Ideal S1x128 .f32) (t : Fin 512) (h : Fin 128) :
    broadcastTo S512x128 (shapeCast S1x128 v shapeCasts_S1x128_S1x128) broadcasts_S1x128_S512x128 (ix2 t h) = v (ix2 0 h) := by
  rw [shapeCast_self]
  exact broadcastTo_apply v broadcasts_S1x128_S512x128 (ix2 t h) (ix2 0 h) (fun a => match a with
    | ⟨0, _⟩ => by show 0 = if (1 : Nat) = 1 then 0 else t.val; rw [if_pos rfl]
    | ⟨1, _⟩ => by show h.val = if (128 : Nat) = 1 then 0 else h.val; rw [if_neg (by decide)])

/-- A projection inside the body: slab rows against weight rows, plus the broadcast bias row. -/
theorem projBlock_at (x : FVec Ideal S1x512x512 .f32) (W : FVec Ideal S128x512 .f32) (β : FVec Ideal S1x128 .f32) (t : Fin 512) (h : Fin 128) :
    addf (F := Ideal) (matmul (F := Ideal) dot_S512x512_S128x512_S512x128_1_1_0_0_n_n none (shapeCast S512x512 x shapeCasts_S1x512x512_S512x512) W (constant (F := Ideal) S512x128 .f32 0x00000000#32))
        (broadcastTo S512x128 (shapeCast S1x128 β shapeCasts_S1x128_S1x128) broadcasts_S1x128_S512x128) (ix2 t h)
      = (∑ d : Fin 512, x (ix3 0 t d) * W (ix2 h d)) + β (ix2 0 h) := by
  rw [addf_apply, rowsRows_apply, biasRow_at]
  simp only [slab_at]

/-! ## The payloads at an entry -/

/-- σ(qh) at (t, h). -/
theorem gate_at (x : FVec Ideal S1x512x512 .f32) (W : FVec Ideal S128x512 .f32) (β : FVec Ideal S1x128 .f32) (t : Fin 512) (h : Fin 128) :
    k0_pay7 (F := Ideal) x W β (ix2 t h) = Ideal.logistic ((∑ d : Fin 512, x (ix3 0 t d) * W (ix2 h d)) + β (ix2 0 h)) := by
  show Ideal.logistic (addf (F := Ideal) (matmul (F := Ideal) dot_S512x512_S128x512_S512x128_1_1_0_0_n_n none (shapeCast S512x512 x shapeCasts_S1x512x512_S512x512) W (constant (F := Ideal) S512x128 .f32 0x00000000#32))
        (broadcastTo S512x128 (shapeCast S1x128 β shapeCasts_S1x128_S1x128) broadcasts_S1x128_S512x128) (ix2 t h)) = _
  rw [projBlock_at]

/-- K = exp(k) at (s, h). -/
theorem expKey_at (x : FVec Ideal S1x512x512 .f32) (W : FVec Ideal S128x512 .f32) (β : FVec Ideal S1x128 .f32) (s : Fin 512) (h : Fin 128) :
    k0_pay4 (F := Ideal) x W β (ix2 s h) = Ideal.exp ((∑ d : Fin 512, x (ix3 0 s d) * W (ix2 h d)) + β (ix2 0 h)) := by
  show Ideal.exp (addf (F := Ideal) (matmul (F := Ideal) dot_S512x512_S128x512_S512x128_1_1_0_0_n_n none (shapeCast S512x512 x shapeCasts_S1x512x512_S512x512) W (constant (F := Ideal) S512x128 .f32 0x00000000#32))
        (broadcastTo S512x128 (shapeCast S1x128 β shapeCasts_S1x128_S1x128) broadcasts_S1x128_S512x128) (ix2 s h)) = _
  rw [projBlock_at]

/-- E = exp(u·w) at (t, s). -/
theorem expPos_at (u : FVec Ideal S512x128 .f32) (w : FVec Ideal S128x512 .f32) (t s : Fin 512) :
    k0_pay3 (F := Ideal) u w (ix2 t s) = Ideal.exp (∑ r : Fin 128, u (ix2 t r) * w (ix2 r s)) := by
  show Ideal.exp (matmul (F := Ideal) dot_S512x128_S128x512_S512x512_1_0_0_1_n_n none u w (constant (F := Ideal) S512x512 .f32 0x00000000#32) (ix2 t s)) = _
  rw [pos_apply]

/-- num = E·(K ∘ v) at (t, h). -/
theorem num_at (x : FVec Ideal S1x512x512 .f32) (kW : FVec Ideal S128x512 .f32) (kb : FVec Ideal S1x128 .f32) (vW : FVec Ideal S128x512 .f32)
    (vb : FVec Ideal S1x128 .f32) (u : FVec Ideal S512x128 .f32) (w : FVec Ideal S128x512 .f32) (t : Fin 512) (h : Fin 128) :
    k0_pay5 (F := Ideal) x kW kb vW vb u w (ix2 t h)
      = ∑ s : Fin 512, k0_pay3 (F := Ideal) u w (ix2 t s) * (k0_pay4 (F := Ideal) x kW kb (ix2 s h) * ((∑ d : Fin 512, x (ix3 0 s d) * vW (ix2 h d)) + vb (ix2 0 h))) := by
  show matmul (F := Ideal) dot_S512x512_S512x128_S512x128_1_0_0_1_n_n none (k0_pay3 (F := Ideal) u w)
      (mulf (F := Ideal) (k0_pay4 (F := Ideal) x kW kb) (addf (F := Ideal) (matmul (F := Ideal) dot_S512x512_S128x512_S512x128_1_1_0_0_n_n none (shapeCast S512x512 x shapeCasts_S1x512x512_S512x512) vW (constant (F := Ideal) S512x128 .f32 0x00000000#32))
        (broadcastTo S512x128 (shapeCast S1x128 vb shapeCasts_S1x128_S1x128) broadcasts_S1x128_S512x128)))
      (constant (F := Ideal) S512x128 .f32 0x00000000#32) (ix2 t h) = _
  rw [mix_apply]
  refine Finset.sum_congr rfl fun s _ => ?_
  rw [mulf_apply, projBlock_at]

/-- den = E·K at (t, h). -/
theorem den_at (x : FVec Ideal S1x512x512 .f32) (kW : FVec Ideal S128x512 .f32) (kb : FVec Ideal S1x128 .f32)
    (u : FVec Ideal S512x128 .f32) (w : FVec Ideal S128x512 .f32) (t : Fin 512) (h : Fin 128) :
    k0_pay6 (F := Ideal) x kW kb u w (ix2 t h) = ∑ s : Fin 512, k0_pay3 (F := Ideal) u w (ix2 t s) * k0_pay4 (F := Ideal) x kW kb (ix2 s h) := by
  show matmul (F := Ideal) dot_S512x512_S512x128_S512x128_1_0_0_1_n_n none (k0_pay3 (F := Ideal) u w) (k0_pay4 (F := Ideal) x kW kb) (constant (F := Ideal) S512x128 .f32 0x00000000#32) (ix2 t h) = _
  rw [mix_apply]

/-! ## The block -/

/-- THE OUTPUT BLOCK AT (0, t, h), for blocks that read their arrays as the pipeline fetches them: the q and kv
    blocks are slab b of their arrays, the three bias rows are the bias vectors laid as [1, 128], the rest are whole
    arrays. Then the entry is the layer at (b, t, h). -/
theorem block_at (Pq Pkv : FVec Ideal S1x512x512 .f32) (PqW PkW PvW Pw : FVec Ideal S128x512 .f32) (Pqb Pkb Pvb : FVec Ideal S1x128 .f32)
    (Pu : FVec Ideal S512x128 .f32)
    (q kv : SSeq.Idx → EReal) (qb kb vb : SBias.Idx → EReal) (b : Fin 2)
    (hq : ∀ (t d : Fin 512), Pq (ix3 0 t d) = q (ix3 b t d)) (hkv : ∀ (t d : Fin 512), Pkv (ix3 0 t d) = kv (ix3 b t d))
    (hqb : ∀ h : Fin 128, Pqb (ix2 0 h) = qb (ix1 h)) (hkb : ∀ h : Fin 128, Pkb (ix2 0 h) = kb (ix1 h))
    (hvb : ∀ h : Fin 128, Pvb (ix2 0 h) = vb (ix1 h)) (t : Fin 512) (h : Fin 128) :
    E10 (F := Ideal) Pq PqW Pqb Pkv PkW Pkb PvW Pvb Pu Pw (ix3 0 t h) = outAt q kv PqW qb PkW kb PvW vb Pu Pw b t h := by
  have e0 : ix10_0 (ix3 (0 : Fin 1) t h) = ix2 t h := funext fun a => Fin.ext (by match a with | ⟨0, _⟩ => rfl | ⟨1, _⟩ => rfl)
  have e1 : ix10_1 (ix3 (0 : Fin 1) t h) = ix2 t h := funext fun a => Fin.ext (by match a with | ⟨0, _⟩ => rfl | ⟨1, _⟩ => rfl)
  have e2 : ix10_2 (ix3 (0 : Fin 1) t h) = ix2 t h := funext fun a => Fin.ext (by match a with | ⟨0, _⟩ => rfl | ⟨1, _⟩ => rfl)
  show (k0_pay7 (F := Ideal) Pq PqW Pqb (ix10_0 (ix3 0 t h)))
      * Ideal.div (k0_pay5 (F := Ideal) Pkv PkW Pkb PvW Pvb Pu Pw (ix10_1 (ix3 0 t h))) (k0_pay6 (F := Ideal) Pkv PkW Pkb Pu Pw (ix10_2 (ix3 0 t h))) = _
  rw [e0, e1, e2, gate_at, num_at, den_at]
  simp only [expPos_at, expKey_at, hq, hkv, hqb, hkb, hvb]
  rfl

end Cert.KernelIdeal.Body

end
-- ==== Proof.Blocks.lean ====
/-
  From the blocks to the result array.

  The grid has two points, one per batch. At point t the q, kv and output windows hold slab t of their arrays; the
  weight matrices and the two positional-bias factors are fetched whole; and the three bias windows stage the
  [1, 128] rows the host laid out from the bias vectors before the launch. So each block entry the body reads is a
  known entry of an argument array, the block the body leaves at point t is the layer function restricted to slab t,
  the two slabs cover the [2, 512, 128] result, and the result array after the run IS the layer function of the ten
  arguments.
-/
import proofs.«121404_j214748365538_1_alg».proof.Proof.KernelBody

set_option maxRecDepth 16384

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx Cert.Aft
open Idealize.ShloMosaic.Pipeline (Dat)

variable (m : (ℓ : Loc nD τ sig) → Buf (Elt Ideal) ℓ) (ρ : Dev nD → PrngReg)

theorem z3 : (![0, 0, 0] : Fin 3 → Nat) = fun _ => 0 := funext fun a => by fin_cases a <;> rfl
theorem z2 : (![0, 0] : Fin 2 → Nat) = fun _ => 0 := funext fun a => by fin_cases a <;> rfl

/-- The batch a grid point works on: the point's number. -/
def batchOf (t : Fin cfg0.N) : Fin 2 := ⟨t.val, Nat.lt_of_lt_of_eq t.isLt N_0⟩

/-- The layer function of the ten argument arrays as launched, on core c. -/
abbrev res (c : Dev nD) : FVec Ideal S2x512x128 .f32 :=
  out (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))

/-! ## Where the windows sit -/

/-- The printed index maps over the two grid points: the q, kv and output windows are at block t of the batch axis
    and block 0 of the others; every other window is at block 0 of both its axes. -/
theorem idx_facts : ∀ t : Fin cfg0.N, win0_0.index t (0 : Fin 3) = t.val
    ∧ win0_0.index t (1 : Fin 3) = 0
    ∧ win0_0.index t (2 : Fin 3) = 0
    ∧ win0_1.index t (0 : Fin 3) = t.val
    ∧ win0_1.index t (1 : Fin 3) = 0
    ∧ win0_1.index t (2 : Fin 3) = 0
    ∧ win0_10.index t (0 : Fin 3) = t.val
    ∧ win0_10.index t (1 : Fin 3) = 0
    ∧ win0_10.index t (2 : Fin 3) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0 :=
  (by decide +kernel : ∀ t : Fin grid0.N, _)

/-! ## What each block reads -/

/-- Window 0's block at point t is slab t of its array: entry (0, r, d) is the array's (t, r, d). -/
theorem qSlab (c : Dev nD) (t : Fin cfg0.N) (r d : Fin 512) :
    (iblk m c 0 t : Vec Ideal S1x512x512 .f32) (ix3 0 r d) = m ((c : Thread nD τ).loc main_arg0) (ix3 (batchOf t) r d) := by
  rw [← V_main_arg0 m c]
  show V m c main_arg0 (((cfg0.win 0).blk t).view.emb (ix3 (0 : Fin 1) r d : S1x512x512.Idx)) = V m c main_arg0 (ix3 (batchOf t) r d)
  refine congrArg (V m c main_arg0) (funext fun a => Fin.ext ?_)
  obtain ⟨i0_0, i0_1, i0_2, i1_0, i1_1, i1_2, i10_0, i10_1, i10_2, i2_0, i2_1, i3_0, i3_1, i4_0, i4_1, i5_0, i5_1, i6_0, i6_1, i7_0, i7_1, i8_0, i8_1, i9_0, i9_1⟩ := idx_facts t
  match a with
  | ⟨0, _⟩ => show win0_0.index t (0 : Fin 3) * 1 + 1 * 0 = t.val; omega
  | ⟨1, _⟩ => show win0_0.index t (1 : Fin 3) * 512 + 1 * r.val = r.val; omega
  | ⟨2, _⟩ => show win0_0.index t (2 : Fin 3) * 512 + 1 * d.val = d.val; omega

/-- Window 1's block at point t is slab t of its array: entry (0, r, d) is the array's (t, r, d). -/
theorem kvSlab (c : Dev nD) (t : Fin cfg0.N) (r d : Fin 512) :
    (iblk m c 1 t : Vec Ideal S1x512x512 .f32) (ix3 0 r d) = m ((c : Thread nD τ).loc main_arg1) (ix3 (batchOf t) r d) := by
  rw [← V_main_arg1 m c]
  show V m c main_arg1 (((cfg0.win 1).blk t).view.emb (ix3 (0 : Fin 1) r d : S1x512x512.Idx)) = V m c main_arg1 (ix3 (batchOf t) r d)
  refine congrArg (V m c main_arg1) (funext fun a => Fin.ext ?_)
  obtain ⟨i0_0, i0_1, i0_2, i1_0, i1_1, i1_2, i10_0, i10_1, i10_2, i2_0, i2_1, i3_0, i3_1, i4_0, i4_1, i5_0, i5_1, i6_0, i6_1, i7_0, i7_1, i8_0, i8_1, i9_0, i9_1⟩ := idx_facts t
  match a with
  | ⟨0, _⟩ => show win0_1.index t (0 : Fin 3) * 1 + 1 * 0 = t.val; omega
  | ⟨1, _⟩ => show win0_1.index t (1 : Fin 3) * 512 + 1 * r.val = r.val; omega
  | ⟨2, _⟩ => show win0_1.index t (2 : Fin 3) * 512 + 1 * d.val = d.val; omega

/-- Window 2 is its whole array at every point. -/
theorem whole2 (c : Dev nD) (t : Fin cfg0.N) : (iblk m c 2 t : Vec Ideal S128x512 .f32) = m ((c : Thread nD τ).loc main_arg2) := by
  rw [← V_main_arg2 m c]
  funext y
  show V m c main_arg2 (((cfg0.win 2).blk t).view.emb y) = V m c main_arg2 y
  refine congrArg (V m c main_arg2) (funext fun a => Fin.ext ?_)
  obtain ⟨i0_0, i0_1, i0_2, i1_0, i1_1, i1_2, i10_0, i10_1, i10_2, i2_0, i2_1, i3_0, i3_1, i4_0, i4_1, i5_0, i5_1, i6_0, i6_1, i7_0, i7_1, i8_0, i8_1, i9_0, i9_1⟩ := idx_facts t
  match a with
  | ⟨0, _⟩ => show win0_2.index t (0 : Fin 2) * 128 + 1 * (y 0).val = (y 0).val; omega
  | ⟨1, _⟩ => show win0_2.index t (1 : Fin 2) * 512 + 1 * (y 1).val = (y 1).val; omega

/-- Window 4 is its whole array at every point. -/
theorem whole4 (c : Dev nD) (t : Fin cfg0.N) : (iblk m c 4 t : Vec Ideal S128x512 .f32) = m ((c : Thread nD τ).loc main_arg4) := by
  rw [← V_main_arg4 m c]
  funext y
  show V m c main_arg4 (((cfg0.win 4).blk t).view.emb y) = V m c main_arg4 y
  refine congrArg (V m c main_arg4) (funext fun a => Fin.ext ?_)
  obtain ⟨i0_0, i0_1, i0_2, i1_0, i1_1, i1_2, i10_0, i10_1, i10_2, i2_0, i2_1, i3_0, i3_1, i4_0, i4_1, i5_0, i5_1, i6_0, i6_1, i7_0, i7_1, i8_0, i8_1, i9_0, i9_1⟩ := idx_facts t
  match a with
  | ⟨0, _⟩ => show win0_4.index t (0 : Fin 2) * 128 + 1 * (y 0).val = (y 0).val; omega
  | ⟨1, _⟩ => show win0_4.index t (1 : Fin 2) * 512 + 1 * (y 1).val = (y 1).val; omega

/-- Window 6 is its whole array at every point. -/
theorem whole6 (c : Dev nD) (t : Fin cfg0.N) : (iblk m c 6 t : Vec Ideal S128x512 .f32) = m ((c : Thread nD τ).loc main_arg6) := by
  rw [← V_main_arg6 m c]
  funext y
  show V m c main_arg6 (((cfg0.win 6).blk t).view.emb y) = V m c main_arg6 y
  refine congrArg (V m c main_arg6) (funext fun a => Fin.ext ?_)
  obtain ⟨i0_0, i0_1, i0_2, i1_0, i1_1, i1_2, i10_0, i10_1, i10_2, i2_0, i2_1, i3_0, i3_1, i4_0, i4_1, i5_0, i5_1, i6_0, i6_1, i7_0, i7_1, i8_0, i8_1, i9_0, i9_1⟩ := idx_facts t
  match a with
  | ⟨0, _⟩ => show win0_6.index t (0 : Fin 2) * 128 + 1 * (y 0).val = (y 0).val; omega
  | ⟨1, _⟩ => show win0_6.index t (1 : Fin 2) * 512 + 1 * (y 1).val = (y 1).val; omega

/-- Window 8 is its whole array at every point. -/
theorem whole8 (c : Dev nD) (t : Fin cfg0.N) : (iblk m c 8 t : Vec Ideal S512x128 .f32) = m ((c : Thread nD τ).loc main_arg8) := by
  rw [← V_main_arg8 m c]
  funext y
  show V m c main_arg8 (((cfg0.win 8).blk t).view.emb y) = V m c main_arg8 y
  refine congrArg (V m c main_arg8) (funext fun a => Fin.ext ?_)
  obtain ⟨i0_0, i0_1, i0_2, i1_0, i1_1, i1_2, i10_0, i10_1, i10_2, i2_0, i2_1, i3_0, i3_1, i4_0, i4_1, i5_0, i5_1, i6_0, i6_1, i7_0, i7_1, i8_0, i8_1, i9_0, i9_1⟩ := idx_facts t
  match a with
  | ⟨0, _⟩ => show win0_8.index t (0 : Fin 2) * 512 + 1 * (y 0).val = (y 0).val; omega
  | ⟨1, _⟩ => show win0_8.index t (1 : Fin 2) * 128 + 1 * (y 1).val = (y 1).val; omega

/-- Window 9 is its whole array at every point. -/
theorem whole9 (c : Dev nD) (t : Fin cfg0.N) : (iblk m c 9 t : Vec Ideal S128x512 .f32) = m ((c : Thread nD τ).loc main_arg9) := by
  rw [← V_main_arg9 m c]
  funext y
  show V m c main_arg9 (((cfg0.win 9).blk t).view.emb y) = V m c main_arg9 y
  refine congrArg (V m c main_arg9) (funext fun a => Fin.ext ?_)
  obtain ⟨i0_0, i0_1, i0_2, i1_0, i1_1, i1_2, i10_0, i10_1, i10_2, i2_0, i2_1, i3_0, i3_1, i4_0, i4_1, i5_0, i5_1, i6_0, i6_1, i7_0, i7_1, i8_0, i8_1, i9_0, i9_1⟩ := idx_facts t
  match a with
  | ⟨0, _⟩ => show win0_9.index t (0 : Fin 2) * 128 + 1 * (y 0).val = (y 0).val; omega
  | ⟨1, _⟩ => show win0_9.index t (1 : Fin 2) * 512 + 1 * (y 1).val = (y 1).val; omega

/-- The array window 3 stages is the bias vector main_arg3 laid as one row. -/
theorem V_row3 (c : Dev nD) : (V m c main_v0 : Vec Ideal S1x128 .f32) = shapeCast S1x128 (m ((c : Thread nD τ).loc main_arg3)) shapeCasts_S128_S1x128 := by
  unfold V; after_results; rfl

/-- Window 3's block is that row: entry (0, h) is the bias at h. -/
theorem qBiasRow (c : Dev nD) (t : Fin cfg0.N) (h : Fin 128) :
    (iblk m c 3 t : Vec Ideal S1x128 .f32) (ix2 0 h) = m ((c : Thread nD τ).loc main_arg3) (ix1 h) := by
  show V m c main_v0 (((cfg0.win 3).blk t).view.emb (ix2 (0 : Fin 1) h : S1x128.Idx)) = _
  have e : ((cfg0.win 3).blk t).view.emb (ix2 (0 : Fin 1) h : S1x128.Idx) = (ix2 (0 : Fin 1) h : S1x128.Idx) := by
    funext a; apply Fin.ext
    obtain ⟨i0_0, i0_1, i0_2, i1_0, i1_1, i1_2, i10_0, i10_1, i10_2, i2_0, i2_1, i3_0, i3_1, i4_0, i4_1, i5_0, i5_1, i6_0, i6_1, i7_0, i7_1, i8_0, i8_1, i9_0, i9_1⟩ := idx_facts t
    match a with
    | ⟨0, _⟩ => show win0_3.index t (0 : Fin 2) * 1 + 1 * 0 = 0; omega
    | ⟨1, _⟩ => show win0_3.index t (1 : Fin 2) * 128 + 1 * h.val = h.val; omega
  rw [e, V_row3 m c]
  exact shapeCast_apply _ shapeCasts_S128_S1x128 (ix2 0 h) (ix1 h) (by
    rw [Shape.rowMajor_val_one, Shape.rowMajor_val_two]
    show h.val = 0 * 128 + h.val
    omega)

/-- The array window 5 stages is the bias vector main_arg5 laid as one row. -/
theorem V_row5 (c : Dev nD) : (V m c main_v1 : Vec Ideal S1x128 .f32) = shapeCast S1x128 (m ((c : Thread nD τ).loc main_arg5)) shapeCasts_S128_S1x128 := by
  unfold V; after_results; rfl

/-- Window 5's block is that row: entry (0, h) is the bias at h. -/
theorem kBiasRow (c : Dev nD) (t : Fin cfg0.N) (h : Fin 128) :
    (iblk m c 5 t : Vec Ideal S1x128 .f32) (ix2 0 h) = m ((c : Thread nD τ).loc main_arg5) (ix1 h) := by
  show V m c main_v1 (((cfg0.win 5).blk t).view.emb (ix2 (0 : Fin 1) h : S1x128.Idx)) = _
  have e : ((cfg0.win 5).blk t).view.emb (ix2 (0 : Fin 1) h : S1x128.Idx) = (ix2 (0 : Fin 1) h : S1x128.Idx) := by
    funext a; apply Fin.ext
    obtain ⟨i0_0, i0_1, i0_2, i1_0, i1_1, i1_2, i10_0, i10_1, i10_2, i2_0, i2_1, i3_0, i3_1, i4_0, i4_1, i5_0, i5_1, i6_0, i6_1, i7_0, i7_1, i8_0, i8_1, i9_0, i9_1⟩ := idx_facts t
    match a with
    | ⟨0, _⟩ => show win0_5.index t (0 : Fin 2) * 1 + 1 * 0 = 0; omega
    | ⟨1, _⟩ => show win0_5.index t (1 : Fin 2) * 128 + 1 * h.val = h.val; omega
  rw [e, V_row5 m c]
  exact shapeCast_apply _ shapeCasts_S128_S1x128 (ix2 0 h) (ix1 h) (by
    rw [Shape.rowMajor_val_one, Shape.rowMajor_val_two]
    show h.val = 0 * 128 + h.val
    omega)

/-- The array window 7 stages is the bias vector main_arg7 laid as one row. -/
theorem V_row7 (c : Dev nD) : (V m c main_v2 : Vec Ideal S1x128 .f32) = shapeCast S1x128 (m ((c : Thread nD τ).loc main_arg7)) shapeCasts_S128_S1x128 := by
  unfold V; after_results; rfl

/-- Window 7's block is that row: entry (0, h) is the bias at h. -/
theorem vBiasRow (c : Dev nD) (t : Fin cfg0.N) (h : Fin 128) :
    (iblk m c 7 t : Vec Ideal S1x128 .f32) (ix2 0 h) = m ((c : Thread nD τ).loc main_arg7) (ix1 h) := by
  show V m c main_v2 (((cfg0.win 7).blk t).view.emb (ix2 (0 : Fin 1) h : S1x128.Idx)) = _
  have e : ((cfg0.win 7).blk t).view.emb (ix2 (0 : Fin 1) h : S1x128.Idx) = (ix2 (0 : Fin 1) h : S1x128.Idx) := by
    funext a; apply Fin.ext
    obtain ⟨i0_0, i0_1, i0_2, i1_0, i1_1, i1_2, i10_0, i10_1, i10_2, i2_0, i2_1, i3_0, i3_1, i4_0, i4_1, i5_0, i5_1, i6_0, i6_1, i7_0, i7_1, i8_0, i8_1, i9_0, i9_1⟩ := idx_facts t
    match a with
    | ⟨0, _⟩ => show win0_7.index t (0 : Fin 2) * 1 + 1 * 0 = 0; omega
    | ⟨1, _⟩ => show win0_7.index t (1 : Fin 2) * 128 + 1 * h.val = h.val; omega
  rw [e, V_row7 m c]
  exact shapeCast_apply _ shapeCasts_S128_S1x128 (ix2 0 h) (ix1 h) (by
    rw [Shape.rowMajor_val_one, Shape.rowMajor_val_two]
    show h.val = 0 * 128 + h.val
    omega)

/-! ## What a point leaves -/

/-- The buffer the body leaves is the index-by-index function of its input blocks (each block loaded whole). -/
theorem left_eq (x0 x1 : Vec Ideal S1x512x512 .f32) (x2 : Vec Ideal S128x512 .f32) (x3 : Vec Ideal S1x128 .f32) (x4 : Vec Ideal S128x512 .f32)
    (x5 : Vec Ideal S1x128 .f32) (x6 : Vec Ideal S128x512 .f32) (x7 : Vec Ideal S1x128 .f32) (x8 : Vec Ideal S512x128 .f32) (x9 : Vec Ideal S128x512 .f32)
    (y : S1x512x128.Idx) :
    out0_10 (F := Ideal) x0 x1 x2 x3 x4 x5 x6 x7 x8 x9 y = E10 (F := Ideal) x0 x2 x3 x1 x4 x5 x6 x7 x8 x9 y := by
  unfold out0_10
  simp only [View.ld_unit_zero (S := S1x512x512) z3, View.ld_unit_zero (S := S128x512) z2, View.ld_unit_zero (S := S1x128) z2,
    View.ld_unit_zero (S := S512x128) z2]
  exact canon10_eq x0 x2 x3 x1 x4 x5 x6 x7 x8 x9 y

/-- At point t the buffer's entry (0, r, h) is the layer at (t, r, h). -/
theorem point_eq (c : Dev nD) (t : Fin cfg0.N) (y : S1x512x128.Idx) :
    out0_10 (F := Ideal) (iblk m c 0 t) (iblk m c 1 t) (iblk m c 2 t) (iblk m c 3 t) (iblk m c 4 t) (iblk m c 5 t) (iblk m c 6 t)
        (iblk m c 7 t) (iblk m c 8 t) (iblk m c 9 t) y
      = res m c (ix3 (batchOf t) (y 1) (y 2)) := by
  obtain ⟨z, r, h, rfl⟩ : ∃ (z : Fin 1) (r : Fin 512) (h : Fin 128), y = ix3 z r h := ⟨y 0, y 1, y 2, eq_ix3 y⟩
  obtain rfl : z = 0 := Subsingleton.elim _ _
  rw [left_eq]
  refine (Body.block_at (iblk m c 0 t) (iblk m c 1 t) (iblk m c 2 t) (iblk m c 4 t) (iblk m c 6 t) (iblk m c 9 t) (iblk m c 3 t) (iblk m c 5 t)
    (iblk m c 7 t) (iblk m c 8 t) (m ((c : Thread nD τ).loc main_arg0)) (m ((c : Thread nD τ).loc main_arg1)) (m ((c : Thread nD τ).loc main_arg3)) (m ((c : Thread nD τ).loc main_arg5)) (m ((c : Thread nD τ).loc main_arg7)) (batchOf t)
    (qSlab m c t) (kvSlab m c t) (qBiasRow m c t) (kBiasRow m c t) (vBiasRow m c t) r h).trans ?_
  rw [whole2 m c t, whole4 m c t, whole6 m c t, whole8 m c t, whole9 m c t]
  rfl

/-- WHAT POINT t WRITES BACK is block t of the layer function. -/
theorem flushed_eq (c : Dev nD) (t : Fin cfg0.N) :
    (dats m 0 c).flushed 10 t = ((cfg0.win 10).blk t).view.read (Elt Ideal) (res m c) := by
  rw [flushed10]
  funext y
  show out0_10 (F := Ideal) (iblk m c 0 t) (iblk m c 1 t) (iblk m c 2 t) (iblk m c 3 t) (iblk m c 4 t) (iblk m c 5 t) (iblk m c 6 t)
        (iblk m c 7 t) (iblk m c 8 t) (iblk m c 9 t) y = res m c (((cfg0.win 10).blk t).view.emb y)
  refine (point_eq m c t y).trans (congrArg (res m c) (funext fun a => Fin.ext ?_))
  obtain ⟨i0_0, i0_1, i0_2, i1_0, i1_1, i1_2, i10_0, i10_1, i10_2, i2_0, i2_1, i3_0, i3_1, i4_0, i4_1, i5_0, i5_1, i6_0, i6_1, i7_0, i7_1, i8_0, i8_1, i9_0, i9_1⟩ := idx_facts t
  match a with
  | ⟨0, _⟩ => show t.val = win0_10.index t (0 : Fin 3) * 1 + 1 * (y 0).val; have hy : (y 0).val < 1 := (y 0).isLt; omega
  | ⟨1, _⟩ => show (y 1).val = win0_10.index t (1 : Fin 3) * 512 + 1 * (y 1).val; omega
  | ⟨2, _⟩ => show (y 2).val = win0_10.index t (2 : Fin 3) * 128 + 1 * (y 2).val; omega

/-! ## The two slabs cover the result -/

/-- An index is in point t's block iff each coordinate is in the block's range on its axis. -/
theorem mem_blk (t : Fin cfg0.N) (i : S2x512x128.Idx) :
    i ∈ ((cfg0.win 10).blk t).view.set ↔ ∀ a : Fin 3, win0_10.index t a * S1x512x128.size a ≤ (i a).val ∧ (i a).val < win0_10.index t a * S1x512x128.size a + S1x512x128.size a := by
  show i ∈ ((View.whole main_v3).slice (win0_10.rect t)).set ↔ _
  rw [View.set_slice_whole, Rect.mem_set_unit]
  exact Iff.rfl

/-- Every result index (b, r, h) is in the block of point b. -/
theorem covered (i : S2x512x128.Idx) : ∃ t : Fin cfg0.N, (cfg0.win 10).flush t = true ∧ i ∈ ((cfg0.win 10).blk t).view.set := by
  have hi0 : (i 0).val < 2 := (i 0).isLt
  have hi1 : (i 1).val < 512 := (i 1).isLt
  have hi2 : (i 2).val < 128 := (i 2).isLt
  obtain ⟨t, ht⟩ : ∃ t : Fin cfg0.N, t.val = (i 0).val := ⟨⟨(i 0).val, Nat.lt_of_lt_of_eq hi0 N_0.symm⟩, rfl⟩
  refine ⟨t, flush0_10 t, ?_⟩
  rw [mem_blk]
  obtain ⟨i0_0, i0_1, i0_2, i1_0, i1_1, i1_2, i10_0, i10_1, i10_2, i2_0, i2_1, i3_0, i3_1, i4_0, i4_1, i5_0, i5_1, i6_0, i6_1, i7_0, i7_1, i8_0, i8_1, i9_0, i9_1⟩ := idx_facts t
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 512 ≤ (i 1).val ∧ (i 1).val < win0_10.index t (1 : Fin 3) * 512 + 512; omega
  | ⟨2, _⟩ => show win0_10.index t (2 : Fin 3) * 128 ≤ (i 2).val ∧ (i 2).val < win0_10.index t (2 : Fin 3) * 128 + 128; omega

/-- THE RESULT ARRAY after the run is the layer function of the arguments. -/
theorem final (c : Dev nD) : (dats m 0 c).arrAt 10 cfg0.N = res m c :=
  (dats m 0 c).arrAt_eq_of_cover 10 (res m c) (fun t _ => flushed_eq m c t) covered

/-! ## The run -/

/-- Every weakly fair execution of the idealized kernel terminates with the result array at the layer function of
    the arguments and the arguments unchanged. -/
theorem run : θ_run defs (onTc (τ := τ) (main (F := Ideal))) ⟨m, fun _ => 0, ρ⟩ fun r => ∀ c : Dev nD,
      r.2.mem ((c : Thread nD τ).loc main_v3) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Blocks

end
-- ==== Proof.RefValue.lean ====
/-
  The reference's result array is the layer function of its arguments.

  The reference forms the three projections and the positional bias as host matrix products, broadcasts
  k[b,s,h] and p[t,s] to a four-axis array over (b, t, s, h), exponentiates their sum there, multiplies by the
  broadcast v[b,s,h], and sums both e^{k+p}·v and e^{k+p} over the key position s (axis 2) from a zero initial
  value; the logistic factor is spelt 1 / (1 + e^{-qh}). Read at the result index (b, t, h), each stage is the
  corresponding piece of the unfactored form, and the unfactored form is the factored one.
-/
import proofs.«121404_j214748365538_1_alg».proof.Proof.Gen.ReferenceIdeal.Read
import proofs.«121404_j214748365538_1_alg».proof.Proof.AftSpec

noncomputable section

namespace Cert.ReferenceIdeal.RefValue

open Cert.ReferenceIdeal Cert.ReferenceIdeal.Gen Cert.ReferenceIdeal.Read Idealize.ShloMosaic Idealize.ShloMosaic.ValueIdx Cert.Aft

variable (x0 x1 : FVec Ideal S2x512x512 .f32) (x2 x4 x6 x9 : FVec Ideal S128x512 .f32) (x3 x5 x7 : FVec Ideal S128 .f32)
  (x8 : FVec Ideal S512x128 .f32)

/-! ## The projections -/

/-- The query projection plus its bias, at (b, t, h). -/
theorem qh_at (b : Fin 2) (t : Fin 512) (h : Fin 128) :
    val_main_v3 (F := Ideal) x0 x2 x3 (ix3 b t h) = proj x0 x2 x3 b t h := by
  have el : ∀ k : Fin 512, lidx_main_v0 (ix3 b t h) k = ix3 b t k := fun k => funext fun a => Fin.ext (by
    match a with | ⟨0, _⟩ => rfl | ⟨1, _⟩ => rfl | ⟨2, _⟩ => rfl)
  have er : ∀ k : Fin 512, ridx_main_v0 (ix3 b t h) k = ix2 h k := fun k => funext fun a => Fin.ext (by
    match a with | ⟨0, _⟩ => rfl | ⟨1, _⟩ => rfl)
  have eb : idx_main_v1 (idx_main_v2 (ix3 b t h)) = ix1 h := funext fun a => Fin.ext (by
    match a with | ⟨0, _⟩ => rfl)
  rw [val_main_v3_apply, val_main_v0_apply, val_main_v2_apply, val_main_v1_apply, eb]
  simp only [el, er]
  rfl

/-- The key projection plus its bias, at (b, s, h). -/
theorem k_at (b : Fin 2) (s : Fin 512) (h : Fin 128) :
    val_main_v7 (F := Ideal) x1 x4 x5 (ix3 b s h) = proj x1 x4 x5 b s h := by
  have el : ∀ k : Fin 512, lidx_main_v4 (ix3 b s h) k = ix3 b s k := fun k => funext fun a => Fin.ext (by
    match a with | ⟨0, _⟩ => rfl | ⟨1, _⟩ => rfl | ⟨2, _⟩ => rfl)
  have er : ∀ k : Fin 512, ridx_main_v4 (ix3 b s h) k = ix2 h k := fun k => funext fun a => Fin.ext (by
    match a with | ⟨0, _⟩ => rfl | ⟨1, _⟩ => rfl)
  have eb : idx_main_v5 (idx_main_v6 (ix3 b s h)) = ix1 h := funext fun a => Fin.ext (by
    match a with | ⟨0, _⟩ => rfl)
  rw [val_main_v7_apply, val_main_v4_apply, val_main_v6_apply, val_main_v5_apply, eb]
  simp only [el, er]
  rfl

/-- The value projection plus its bias, at (b, s, h). -/
theorem v_at (b : Fin 2) (s : Fin 512) (h : Fin 128) :
    val_main_v11 (F := Ideal) x1 x6 x7 (ix3 b s h) = proj x1 x6 x7 b s h := by
  have el : ∀ k : Fin 512, lidx_main_v8 (ix3 b s h) k = ix3 b s k := fun k => funext fun a => Fin.ext (by
    match a with | ⟨0, _⟩ => rfl | ⟨1, _⟩ => rfl | ⟨2, _⟩ => rfl)
  have er : ∀ k : Fin 512, ridx_main_v8 (ix3 b s h) k = ix2 h k := fun k => funext fun a => Fin.ext (by
    match a with | ⟨0, _⟩ => rfl | ⟨1, _⟩ => rfl)
  have eb : idx_main_v9 (idx_main_v10 (ix3 b s h)) = ix1 h := funext fun a => Fin.ext (by
    match a with | ⟨0, _⟩ => rfl)
  rw [val_main_v11_apply, val_main_v8_apply, val_main_v10_apply, val_main_v9_apply, eb]
  simp only [el, er]
  rfl

/-- The positional bias at (t, s). -/
theorem p_at (t s : Fin 512) : val_main_v12 (F := Ideal) x8 x9 (ix2 t s) = posBias x8 x9 t s := by
  have el : ∀ k : Fin 128, lidx_main_v12 (ix2 t s) k = ix2 t k := fun k => funext fun a => Fin.ext (by
    match a with | ⟨0, _⟩ => rfl | ⟨1, _⟩ => rfl)
  have er : ∀ k : Fin 128, ridx_main_v12 (ix2 t s) k = ix2 k s := fun k => funext fun a => Fin.ext (by
    match a with | ⟨0, _⟩ => rfl | ⟨1, _⟩ => rfl)
  rw [val_main_v12_apply]
  simp only [el, er]
  rfl

/-! ## The four-axis stages at (b, t, s, h) -/

/-- The exponentiated sum of the broadcast key projection and the broadcast positional bias. -/
theorem expo_at (b : Fin 2) (t s : Fin 512) (h : Fin 128) :
    val_main_v18 (F := Ideal) x1 x4 x5 x8 x9 (ix4 b t s h) = Ideal.exp (proj x1 x4 x5 b s h + posBias x8 x9 t s) := by
  have ek : idx_main_v13 (idx_main_v15 (ix4 b t s h)) = ix3 b s h := funext fun a => Fin.ext (by
    match a with | ⟨0, _⟩ => rfl | ⟨1, _⟩ => rfl | ⟨2, _⟩ => rfl)
  have ep : idx_main_v14 (idx_main_v16 (ix4 b t s h)) = ix2 t s := funext fun a => Fin.ext (by
    match a with | ⟨0, _⟩ => rfl | ⟨1, _⟩ => rfl)
  rw [val_main_v18_apply, val_main_v17_apply, val_main_v15_apply, val_main_v13_apply, val_main_v16_apply, val_main_v14_apply,
    ek, ep, k_at, p_at]
  rfl

/-- The broadcast value projection. -/
theorem vbro_at (b : Fin 2) (t s : Fin 512) (h : Fin 128) :
    val_main_v20 (F := Ideal) x1 x6 x7 (ix4 b t s h) = proj x1 x6 x7 b s h := by
  have ev : idx_main_v19 (idx_main_v20 (ix4 b t s h)) = ix3 b s h := funext fun a => Fin.ext (by
    match a with | ⟨0, _⟩ => rfl | ⟨1, _⟩ => rfl | ⟨2, _⟩ => rfl)
  rw [val_main_v20_apply, val_main_v19_apply, ev, v_at]

/-! ## The two sums over the key position, and the logistic factor, at (b, t, h) -/

/-- The numerator: the sum over s of e^{k+p}·v, from the zero initial value. -/
theorem num_at (b : Fin 2) (t : Fin 512) (h : Fin 128) :
    val_main_v22 (F := Ideal) x1 x4 x5 x6 x7 x8 x9 (ix3 b t h)
      = 0 + ∑ s : Fin 512, Ideal.exp (proj x1 x4 x5 b s h + posBias x8 x9 t s) * proj x1 x6 x7 b s h := by
  have ei : ∀ k : Fin 512, idx_main_v22 (ix3 b t h) k = ix4 b t k h := fun k => funext fun a => Fin.ext (by
    match a with | ⟨0, _⟩ => rfl | ⟨1, _⟩ => rfl | ⟨2, _⟩ => rfl | ⟨3, _⟩ => rfl)
  rw [val_main_v22_apply, val_main_cst_apply]
  simp only [ei, val_main_v21_apply, expo_at, vbro_at]
  show Ideal.ofBits .f32 0x00000000#32 + _ = _
  rw [Ideal.ofBits_zero_f32]
  rfl

/-- The denominator: the sum over s of e^{k+p}, from the zero initial value. -/
theorem den_at (b : Fin 2) (t : Fin 512) (h : Fin 128) :
    val_main_v23 (F := Ideal) x1 x4 x5 x8 x9 (ix3 b t h)
      = 0 + ∑ s : Fin 512, Ideal.exp (proj x1 x4 x5 b s h + posBias x8 x9 t s) := by
  have ei : ∀ k : Fin 512, idx_main_v23 (ix3 b t h) k = ix4 b t k h := fun k => funext fun a => Fin.ext (by
    match a with | ⟨0, _⟩ => rfl | ⟨1, _⟩ => rfl | ⟨2, _⟩ => rfl | ⟨3, _⟩ => rfl)
  rw [val_main_v23_apply, val_main_cst_0_apply]
  simp only [ei, expo_at]
  show Ideal.ofBits .f32 0x00000000#32 + _ = _
  rw [Ideal.ofBits_zero_f32]

/-- The logistic factor as the reference spells it. -/
theorem sig_at (b : Fin 2) (t : Fin 512) (h : Fin 128) :
    val_main_v29 (F := Ideal) x0 x2 x3 (ix3 b t h) = Ideal.div 1 (1 + Ideal.exp (-(proj x0 x2 x3 b t h))) := by
  rw [val_main_v29_apply, val_main_v28_apply, val_main_cst_2_apply, val_main_v27_apply, val_main_v26_apply, val_main_cst_1_apply,
    val_main_v25_apply, val_main_v24_apply, qh_at]
  show Ideal.div (Ideal.ofBits .f32 0x3F800000#32) (Ideal.ofBits .f32 0x3F800000#32 + Ideal.exp (-(proj x0 x2 x3 b t h))) = _
  rw [Ideal.ofBits_one_f32]

/-! ## The whole array -/

/-- The reference's result is the layer function of its ten arguments. -/
theorem result_eq : val_main_v31 (F := Ideal) x0 x1 x2 x3 x4 x5 x6 x7 x8 x9 = out x0 x1 x2 x3 x4 x5 x6 x7 x8 x9 := by
  funext i
  obtain ⟨b, t, h, rfl⟩ : ∃ (b : Fin 2) (t : Fin 512) (h : Fin 128), i = ix3 b t h := ⟨i 0, i 1, i 2, eq_ix3 i⟩
  rw [val_main_v31_apply, val_main_v30_apply, sig_at, num_at, den_at]
  exact unfactored_eq _ _ _ _

end Cert.ReferenceIdeal.RefValue

end
-- ==== Proof.lean ====
/-
  The certificate of an attention-free transformer layer with a low-rank positional bias.

  Both programs compute, from q, kv [2, 512, 512], three [128, 512] projection matrices with their [128] biases and
  the two factors u [512, 128], w [128, 512] of a positional bias p = u·w,

      out[b,t,h] = σ(qh[b,t,h]) · ( Σ_s e^{k[b,s,h] + p[t,s]} · v[b,s,h] ) / ( Σ_s e^{k[b,s,h] + p[t,s]} ),

  with qh, k, v the projections plus biases and σ the logistic function. The reference forms e^{k + p} over a
  four-axis array and sums over the key position s; the kernel, one grid point per batch, splits the exponential
  into e^{p[t,s]} · e^{k[b,s,h]} and takes both sums as matrix products. On the extended reals the exponential of a
  sum is the product of the exponentials at every pair of arguments, infinite ones included, and the product is
  commutative and associative, so the two are one function of the arguments (Proof/AftSpec.lean) and the
  finiteness of the inputs is never used.

  The kernel's side: what a grid point's body leaves, entry by entry (Proof/KernelBody.lean), and the two slabs
  assembled into the result array (Proof/Blocks.lean), over the generated frame run. The reference's side: its
  generated run, read one operation at a time (Proof/RefValue.lean). The kernel's idealization rewrote nothing, so
  there is nothing to preserve.
-/
import proofs.«121404_j214748365538_1_alg».proof.Defs
import proofs.«121404_j214748365538_1_alg».proof.Proof.Gen.Kernel
import proofs.«121404_j214748365538_1_alg».proof.Proof.Gen.Kernel.Skeleton
import proofs.«121404_j214748365538_1_alg».proof.Proof.Gen.Kernel.Launch
import proofs.«121404_j214748365538_1_alg».proof.Proof.Gen.Kernel.Points
import proofs.«121404_j214748365538_1_alg».proof.Proof.Gen.Kernel.Frame
import proofs.«121404_j214748365538_1_alg».proof.Proof.Gen.KernelIdeal
import proofs.«121404_j214748365538_1_alg».proof.Proof.Gen.KernelIdeal.Skeleton
import proofs.«121404_j214748365538_1_alg».proof.Proof.Gen.KernelIdeal.Launch
import proofs.«121404_j214748365538_1_alg».proof.Proof.Gen.KernelIdeal.Points
import proofs.«121404_j214748365538_1_alg».proof.Proof.Gen.KernelIdeal.Frame
import proofs.«121404_j214748365538_1_alg».proof.Proof.Gen.ReferenceIdeal
import proofs.«121404_j214748365538_1_alg».proof.Proof.Gen.Pre_finite_inputs
import proofs.«121404_j214748365538_1_alg».proof.Proof.Gen.KernelIdeal.Value
import proofs.«121404_j214748365538_1_alg».proof.Proof.Gen.ReferenceIdeal.Run
import proofs.«121404_j214748365538_1_alg».proof.Proof.Gen.ReferenceIdeal.Read
import proofs.«121404_j214748365538_1_alg».proof.Proof.Blocks
import proofs.«121404_j214748365538_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the ten arguments both programs end with the layer function of those arguments in
    their result arrays: the kernel's by its blocks, the reference's by its run read stage by stage. -/
theorem algebraic : Cert.algebraic_KernelIdeal_ReferenceIdeal := by
  intro m ρ m' ρ' _ hagree
  refine ⟨fun c => Cert.KernelIdeal.Blocks.res m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v31_eq, Cert.ReferenceIdeal.RefValue.result_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
